-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2000000 : Shape := ⟨2, ![2, 2000000]⟩
abbrev S2000000 : Shape := ⟨1, ![2000000]⟩
abbrev S200000x64 : Shape := ⟨2, ![200000, 64]⟩
abbrev S2x64 : Shape := ⟨2, ![2, 64]⟩
abbrev S128x1 : Shape := ⟨2, ![128, 1]⟩
abbrev S1 : Shape := ⟨1, ![1]⟩
abbrev S64x64 : Shape := ⟨2, ![64, 64]⟩
abbrev S64 : Shape := ⟨1, ![64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : IVec S2x2000000 32) (main_arg1 : IVec S2000000 32) (main_arg2 : FVec F S200000x64 .f32) (main_arg3 : FVec F S2x64 .f32) (main_arg4 : FVec F S128x1 .f32) (main_arg5 : FVec F S1 .f32) (main_arg6 : FVec F S64x64 .f32) (main_arg7 : FVec F S64 .f32) : IVec S_ 1 :=
  let main_v0 : FVec F S200000x64 .f32 := Host.absf main_arg2
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S2x64 .f32 := Host.absf main_arg3
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S128x1 .f32 := Host.absf main_arg4
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg6 main_arg7 main_v13 main_v16
-- ==== Kernel.lean ====
abbrev S2x2000000 : Shape := ⟨2, ![2, 2000000]⟩
abbrev S2000000 : Shape := ⟨1, ![2000000]⟩
abbrev S200000x64 : Shape := ⟨2, ![200000, 64]⟩
abbrev S2x64 : Shape := ⟨2, ![2, 64]⟩
abbrev S128x1 : Shape := ⟨2, ![128, 1]⟩
abbrev S1 : Shape := ⟨1, ![1]⟩
abbrev S64x64 : Shape := ⟨2, ![64, 64]⟩
abbrev S64 : Shape := ⟨1, ![64]⟩
abbrev S1x2000000 : Shape := ⟨2, ![1, 2000000]⟩
abbrev S_ : Shape := ⟨0, ![]⟩
abbrev S2000000x1 : Shape := ⟨2, ![2000000, 1]⟩
abbrev S2000000x64 : Shape := ⟨2, ![2000000, 64]⟩
abbrev S128 : Shape := ⟨1, ![128]⟩
abbrev S8000x64 : Shape := ⟨2, ![8000, 64]⟩
abbrev S1x64 : Shape := ⟨2, ![1, 64]⟩
abbrev S8000 : Shape := ⟨1, ![8000]⟩
abbrev S8000x1 : Shape := ⟨2, ![8000, 1]⟩
abbrev S1x1 : Shape := ⟨2, ![1, 1]⟩
abbrev S20000x64 : Shape := ⟨2, ![20000, 64]⟩

abbrev nBuf : Space → Nat
  | .hbm => 51
  | .vmem => 17
  | .smem => 0
  | _ => 0

abbrev bufTy : (tb : Table) → Fin (tcTables nBuf tb) → BufTy
  | .hbm, ⟨0, _⟩ => ⟨S2x2000000, .i32⟩
  | .hbm, ⟨1, _⟩ => ⟨S2000000, .i32⟩
  | .hbm, ⟨2, _⟩ => ⟨S200000x64, .f32⟩
  | .hbm, ⟨3, _⟩ => ⟨S2x64, .f32⟩
  | .hbm, ⟨4, _⟩ => ⟨S128x1, .f32⟩
  | .hbm, ⟨5, _⟩ => ⟨S1, .f32⟩
  | .hbm, ⟨6, _⟩ => ⟨S64x64, .f32⟩
  | .hbm, ⟨7, _⟩ => ⟨S64, .f32⟩
  | .hbm, ⟨8, _⟩ => ⟨S1x2000000, .i32⟩
  | .hbm, ⟨9, _⟩ => ⟨S2000000, .i32⟩
  | .hbm, ⟨10, _⟩ => ⟨S_, .i32⟩
  | .hbm, ⟨11, _⟩ => ⟨S2000000, .i32⟩
  | .hbm, ⟨12, _⟩ => ⟨S2000000, .i1⟩
  | .hbm, ⟨13, _⟩ => ⟨S_, .i32⟩
  | .hbm, ⟨14, _⟩ => ⟨S2000000, .i32⟩
  | .hbm, ⟨15, _⟩ => ⟨S2000000, .i32⟩
  | .hbm, ⟨16, _⟩ => ⟨S2000000, .i32⟩
  | .hbm, ⟨17, _⟩ => ⟨S2000000x1, .i32⟩
  | .hbm, ⟨18, _⟩ => ⟨S2000000x64, .f32⟩
  | .hbm, ⟨19, _⟩ => ⟨S1x2000000, .i32⟩
  | .hbm, ⟨20, _⟩ => ⟨S2000000, .i32⟩
  | .hbm, ⟨21, _⟩ => ⟨S_, .i32⟩
  | .hbm, ⟨22, _⟩ => ⟨S2000000, .i32⟩
  | .hbm, ⟨23, _⟩ => ⟨S2000000, .i1⟩
  | .hbm, ⟨24, _⟩ => ⟨S_, .i32⟩
  | .hbm, ⟨25, _⟩ => ⟨S2000000, .i32⟩
  | .hbm, ⟨26, _⟩ => ⟨S2000000, .i32⟩
  | .hbm, ⟨27, _⟩ => ⟨S2000000, .i32⟩
  | .hbm, ⟨28, _⟩ => ⟨S2000000x1, .i32⟩
  | .hbm, ⟨29, _⟩ => ⟨S2000000x64, .f32⟩
  | .hbm, ⟨30, _⟩ => ⟨S_, .i32⟩
  | .hbm, ⟨31, _⟩ => ⟨S2000000, .i32⟩
  | .hbm, ⟨32, _⟩ => ⟨S2000000, .i1⟩
  | .hbm, ⟨33, _⟩ => ⟨S_, .i32⟩
  | .hbm, ⟨34, _⟩ => ⟨S2000000, .i32⟩
  | .hbm, ⟨35, _⟩ => ⟨S2000000, .i32⟩
  | .hbm, ⟨36, _⟩ => ⟨S2000000, .i32⟩
  | .hbm, ⟨37, _⟩ => ⟨S2000000x1, .i32⟩
  | .hbm, ⟨38, _⟩ => ⟨S2000000x64, .f32⟩
  | .hbm, ⟨39, _⟩ => ⟨S128, .f32⟩
  | .hbm, ⟨40, _⟩ => ⟨S64, .f32⟩
  | .hbm, ⟨41, _⟩ => ⟨S64, .f32⟩
  | .hbm, ⟨42, _⟩ => ⟨S2000000x64, .f32⟩
  | .hbm, ⟨43, _⟩ => ⟨S1x2000000, .i32⟩
  | .hbm, ⟨44, _⟩ => ⟨S2000000, .i32⟩
  | .hbm, ⟨45, _⟩ => ⟨S_, .f32⟩
  | .hbm, ⟨46, _⟩ => ⟨S200000x64, .f32⟩
  | .hbm, ⟨47, _⟩ => ⟨S2000000x1, .i32⟩
  | .hbm, ⟨48, _⟩ => ⟨S200000x64, .f32⟩
  | .hbm, ⟨49, _⟩ => ⟨S64x64, .f32⟩
  | .hbm, ⟨50, _⟩ => ⟨S200000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S64, .f32⟩
  | .local _ .vmem, ⟨7, _⟩ => ⟨S64, .f32⟩
  | .local _ .vmem, ⟨8, _⟩ => ⟨S1, .f32⟩
  | .local _ .vmem, ⟨9, _⟩ => ⟨S8000x64, .f32⟩
  | .local _ .vmem, ⟨10, _⟩ => ⟨S8000x64, .f32⟩
  | .local _ .vmem, ⟨11, _⟩ => ⟨S20000x64, .f32⟩
  | .local _ .vmem, ⟨12, _⟩ => ⟨S20000x64, .f32⟩
  | .local _ .vmem, ⟨13, _⟩ => ⟨S64x64, .f32⟩
  | .local _ .vmem, ⟨14, _⟩ => ⟨S64, .f32⟩
  | .local _ .vmem, ⟨15, _⟩ => ⟨S20000x64, .f32⟩
  | .local _ .vmem, ⟨16, _⟩ => ⟨S20000x64, .f32⟩
  | _, _ => ⟨S2x2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  shapeCasts_S128x1_S128 : S128x1.ShapeCasts S128
  slices_S128_S64_0 : S128.Slices ![0] S64
  slices_S128_S64_64 : S128.Slices ![64] S64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S8000x64 : S1x64.Broadcasts S8000x64
  reduces_S8000x64_S8000 : S8000x64.Reduces [1] S8000
  shapeCasts_S8000_S8000x1 : S8000.ShapeCasts S8000x1
  inb_S1_S1_0 : ∀ a, (![0] : Fin 1 → Nat) a + S1.size a ≤ S1.size a
  h_S1 : 0 < S1.numel
  shapeCasts_S1_S1x1 : S1.ShapeCasts S1x1
  broadcasts_S1x1_S8000x1 : S1x1.Broadcasts S8000x1
  broadcasts_S8000x1_S8000x64 : S8000x1.Broadcasts S8000x64
  bcast_S_S200000x64 : S_.BroadcastsInDim S200000x64 (![] : Fin 0 → Fin S200000x64.rank)
  transposes_S64x64_S64x64_1_0 : S64x64.Transposes [1, 0] S64x64
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S20000x64 : S1x64.Broadcasts S20000x64
  gather_S200000x64_S2000000x1_S2000000x64_1_0_n_n_0_1_164_wf : GatherDims.WF S200000x64 S2000000x1 S2000000x64 [1] [0] [] [0] [] 1 ![1, 64]
  gather_S2x64_S2000000x1_S2000000x64_1_0_n_n_0_1_164_wf : GatherDims.WF S2x64 S2000000x1 S2000000x64 [1] [0] [] [0] [] 1 ![1, 64]
  scatter_S200000x64_S2000000x1_S2000000x64_1_0_0_1_wf : ScatterDims.WF S200000x64 S2000000x1 S2000000x64 [1] [0] [0] 1
  dot_S20000x64_S64x64_S20000x64_1_0_0_1_n_n_wf : DotDims.WF S20000x64 S64x64 S20000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S2000000x64.size a
  hwx0_0 : ∀ i : grid0.Coords, EltTy.bits .f32 = 32 ∨ (Rect.block (s := S2000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S2000000x64.size a
  hwx0_1 : ∀ i : grid0.Coords, EltTy.bits .f32 = 32 ∨ (Rect.block (s := S2000000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S2000000x64.size a
  hwx0_2 : ∀ i : grid0.Coords, EltTy.bits .f32 = 32 ∨ (Rect.block (s := S2000000x64) S8000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x64.size a ≤ S2000000x64.size a
  hwx0_6 : ∀ i : grid0.Coords, EltTy.bits .f32 = 32 ∨ (Rect.block (s := S2000000x64) S8000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S200000x64.size a
  hwx1_0 : ∀ i : grid1.Coords, EltTy.bits .f32 = 32 ∨ (Rect.block (s := S200000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x64.size a ≤ S200000x64.size a
  hwx1_3 : ∀ i : grid1.Coords, EltTy.bits .f32 = 32 ∨ (Rect.block (s := S200000x64) S20000x64.size (cc1_transform_3 i) (hinb1_3 i)).WholeWords (EltTy.packing .f32)

variable [Facts₀]

def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def gather_S2x64_S2000000x1_S2000000x64_1_0_n_n_0_1_164 : GatherDims S2x64 S2000000x1 S2000000x64 where
  offsetDims := [1]
  collapsedSliceDims := [0]
  operandBatchingDims := []
  startIndicesBatchingDims := []
  startIndexMap := [0]
  indexVectorDim := 1
  sliceSizes := ![1, 64]
  wf := gather_S2x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf

abbrev win0_0 : Pipeline.Window sig grid0 :=
  Pipeline.Window.ofSpec (Memref.whole main_v8) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S8000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S20000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2000000 : Shape := ⟨2, ![2, 2000000]⟩
abbrev S2000000 : Shape := ⟨1, ![2000000]⟩
abbrev S200000x64 : Shape := ⟨2, ![200000, 64]⟩
abbrev S2x64 : Shape := ⟨2, ![2, 64]⟩
abbrev S128x1 : Shape := ⟨2, ![128, 1]⟩
abbrev S1 : Shape := ⟨1, ![1]⟩
abbrev S64x64 : Shape := ⟨2, ![64, 64]⟩
abbrev S64 : Shape := ⟨1, ![64]⟩
abbrev S1x2000000 : Shape := ⟨2, ![1, 2000000]⟩
abbrev S_ : Shape := ⟨0, ![]⟩
abbrev S2000000x1 : Shape := ⟨2, ![2000000, 1]⟩
abbrev S2000000x64 : Shape := ⟨2, ![2000000, 64]⟩
abbrev S2000000x128 : Shape := ⟨2, ![2000000, 128]⟩
abbrev S1x1 : Shape := ⟨2, ![1, 1]⟩
abbrev S1x64 : Shape := ⟨2, ![1, 64]⟩

abbrev nBuf : Space → Nat
  | .hbm => 66
  | .vmem => 0
  | .smem => 0
  | _ => 0

abbrev bufTy : (tb : Table) → Fin (tcTables nBuf tb) → BufTy
  | .hbm, ⟨0, _⟩ => ⟨S2x2000000, .i32⟩
  | .hbm, ⟨1, _⟩ => ⟨S2000000, .i32⟩
  | .hbm, ⟨2, _⟩ => ⟨S200000x64, .f32⟩
  | .hbm, ⟨3, _⟩ => ⟨S2x64, .f32⟩
  | .hbm, ⟨4, _⟩ => ⟨S128x1, .f32⟩
  | .hbm, ⟨5, _⟩ => ⟨S1, .f32⟩
  | .hbm, ⟨6, _⟩ => ⟨S64x64, .f32⟩
  | .hbm, ⟨7, _⟩ => ⟨S64, .f32⟩
  | .hbm, ⟨8, _⟩ => ⟨S1x2000000, .i32⟩
  | .hbm, ⟨9, _⟩ => ⟨S2000000, .i32⟩
  | .hbm, ⟨10, _⟩ => ⟨S_, .i32⟩
  | .hbm, ⟨11, _⟩ => ⟨S2000000, .i32⟩
  | .hbm, ⟨12, _⟩ => ⟨S2000000, .i1⟩
  | .hbm, ⟨13, _⟩ => ⟨S_, .i32⟩
  | .hbm, ⟨14, _⟩ => ⟨S2000000, .i32⟩
  | .hbm, ⟨15, _⟩ => ⟨S2000000, .i32⟩
  | .hbm, ⟨16, _⟩ => ⟨S2000000, .i32⟩
  | .hbm, ⟨17, _⟩ => ⟨S2000000x1, .i32⟩
  | .hbm, ⟨18, _⟩ => ⟨S2000000x64, .f32⟩
  | .hbm, ⟨19, _⟩ => ⟨S1x2000000, .i32⟩
  | .hbm, ⟨20, _⟩ => ⟨S2000000, .i32⟩
  | .hbm, ⟨21, _⟩ => ⟨S_, .i32⟩
  | .hbm, ⟨22, _⟩ => ⟨S2000000, .i32⟩
  | .hbm, ⟨23, _⟩ => ⟨S2000000, .i1⟩
  | .hbm, ⟨24, _⟩ => ⟨S_, .i32⟩
  | .hbm, ⟨25, _⟩ => ⟨S2000000, .i32⟩
  | .hbm, ⟨26, _⟩ => ⟨S2000000, .i32⟩
  | .hbm, ⟨27, _⟩ => ⟨S2000000, .i32⟩
  | .hbm, ⟨28, _⟩ => ⟨S2000000x1, .i32⟩
  | .hbm, ⟨29, _⟩ => ⟨S2000000x64, .f32⟩
  | .hbm, ⟨30, _⟩ => ⟨S_, .i32⟩
  | .hbm, ⟨31, _⟩ => ⟨S2000000, .i32⟩
  | .hbm, ⟨32, _⟩ => ⟨S2000000, .i1⟩
  | .hbm, ⟨33, _⟩ => ⟨S_, .i32⟩
  | .hbm, ⟨34, _⟩ => ⟨S2000000, .i32⟩
  | .hbm, ⟨35, _⟩ => ⟨S2000000, .i32⟩
  | .hbm, ⟨36, _⟩ => ⟨S2000000, .i32⟩
  | .hbm, ⟨37, _⟩ => ⟨S2000000x1, .i32⟩
  | .hbm, ⟨38, _⟩ => ⟨S2000000x64, .f32⟩
  | .hbm, ⟨39, _⟩ => ⟨S2000000x128, .f32⟩
  | .hbm, ⟨40, _⟩ => ⟨S2000000x1, .f32⟩
  | .hbm, ⟨41, _⟩ => ⟨S1x1, .f32⟩
  | .hbm, ⟨42, _⟩ => ⟨S2000000x1, .f32⟩
  | .hbm, ⟨43, _⟩ => ⟨S2000000x1, .f32⟩
  | .hbm, ⟨44, _⟩ => ⟨S2000000x1, .f32⟩
  | .hbm, ⟨45, _⟩ => ⟨S2000000x1, .f32⟩
  | .hbm, ⟨46, _⟩ => ⟨S_, .f32⟩
  | .hbm, ⟨47, _⟩ => ⟨S2000000x1, .f32⟩
  | .hbm, ⟨48, _⟩ => ⟨S2000000x1, .f32⟩
  | .hbm, ⟨49, _⟩ => ⟨S_, .f32⟩
  | .hbm, ⟨50, _⟩ => ⟨S2000000x1, .f32⟩
  | .hbm, ⟨51, _⟩ => ⟨S2000000x1, .f32⟩
  | .hbm, ⟨52, _⟩ => ⟨S2000000x64, .f32⟩
  | .hbm, ⟨53, _⟩ => ⟨S2000000x64, .f32⟩
  | .hbm, ⟨54, _⟩ => ⟨S1x2000000, .i32⟩
  | .hbm, ⟨55, _⟩ => ⟨S2000000, .i32⟩
  | .hbm, ⟨56, _⟩ => ⟨S_, .f32⟩
  | .hbm, ⟨57, _⟩ => ⟨S200000x64, .f32⟩
  | .hbm, ⟨58, _⟩ => ⟨S2000000x1, .i32⟩
  | .hbm, ⟨59, _⟩ => ⟨S200000x64, .f32⟩
  | .hbm, ⟨60, _⟩ => ⟨S64x64, .f32⟩
  | .hbm, ⟨61, _⟩ => ⟨S200000x64, .f32⟩
  | .hbm, ⟨62, _⟩ => ⟨S1x64, .f32⟩
  | .hbm, ⟨63, _⟩ => ⟨S200000x64, .f32⟩
  | .hbm, ⟨64, _⟩ => ⟨S200000x64, .f32⟩
  | .hbm, ⟨65, _⟩ => ⟨S200000x64, .f32⟩
  | _, _ => ⟨S2x2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  concatenates_S2000000x64_S2000000x64_S2000000x128_d1 : Shape.Concatenates [S2000000x64, S2000000x64] S2000000x128 1
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  bcast_S_S2000000x1 : S_.BroadcastsInDim S2000000x1 (![] : Fin 0 → Fin S2000000x1.rank)
  bcast_S2000000x1_S2000000x64_0_1 : S2000000x1.BroadcastsInDim S2000000x64 (![0, 1] : Fin 2 → Fin S2000000x64.rank)
  bcast_S_S200000x64 : S_.BroadcastsInDim S200000x64 (![] : Fin 0 → Fin S200000x64.rank)
  transposes_S64x64_S64x64_1_0 : S64x64.Transposes [1, 0] S64x64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  gather_S200000x64_S2000000x1_S2000000x64_1_0_n_n_0_1_164_wf : GatherDims.WF S200000x64 S2000000x1 S2000000x64 [1] [0] [] [0] [] 1 ![1, 64]
  gather_S2x64_S2000000x1_S2000000x64_1_0_n_n_0_1_164_wf : GatherDims.WF S2x64 S2000000x1 S2000000x64 [1] [0] [] [0] [] 1 ![1, 64]
  dot_S2000000x128_S128x1_S2000000x1_1_0_0_1_n_n_wf : DotDims.WF S2000000x128 S128x1 S2000000x1 [1] [0] [0] [1] [] []
  scatter_S200000x64_S2000000x1_S2000000x64_1_0_0_1_wf : ScatterDims.WF S200000x64 S2000000x1 S2000000x64 [1] [0] [0] 1
  dot_S200000x64_S64x64_S200000x64_1_0_0_1_n_n_wf : DotDims.WF S200000x64 S64x64 S200000x64 [1] [0] [0] [1] [] []

variable [Facts₀]

def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def gather_S2x64_S2000000x1_S2000000x64_1_0_n_n_0_1_164 : GatherDims S2x64 S2000000x1 S2000000x64 where
  offsetDims := [1]
  collapsedSliceDims := [0]
  operandBatchingDims := []
  startIndicesBatchingDims := []
  startIndexMap := [0]
  indexVectorDim := 1
  sliceSizes := ![1, 64]
  wf := gather_S2x64_S2000000x1_S2000000x64_1_0_n_n_0_1_164_wf
def dot_S2000000x128_S128x1_S2000000x1_1_0_0_1_n_n : DotDims S2000000x128 S128x1 S2000000x1 where
  lhsContracting := [1]
  rhsContracting := [0]
  lhsNonContracting := [0]
  rhsNonContracting := [1]
  lhsBatch := []
  rhsBatch := []
  wf := dot_S2000000x128_S128x1_S2000000x1_1_0_0_1_n_n_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf

class Facts : Prop extends Facts₀ where

variable [Facts]
-- ==== Proof.Spec.lean ====
/-
  The mathematics of the message-passing layer, index by index over the extended reals, as both programs compute it.

  For an edge `e` with head row `h_e`, tail row `t_e` and relation row `r_e` (each of 64 entries), the attention score is
  `s_e = Σ_k h_e[k]·a[k] + Σ_k r_e[k]·a[64+k] + b` (the 128-entry attention vector `a` split into its head half and its
  relation half), the message row is `σ(s_e) · t_e` with `σ x = 1 / (1 + e^(-x))`, and an entity's aggregated row `g_n`
  (the sum of the message rows of the edges whose head it is) is sent to `tanh (Σ_k g_n[k]·Wᵀ[k, d] + β[d])`.
  The functions below are those two maps on whole arrays; nothing here mentions a program.
-/
import Idealize.ShloMosaic.PureOps.Ideal
import Idealize.ShloMosaic.Lib.ValueIdx

noncomputable section

namespace Cert.Spec

open Idealize.ShloMosaic Idealize.ShloMosaic.ValueIdx

/-- The head half of the attention vector: entries `0 … 63` of the `[128, 1]` column. -/
def attHead (aw : FVec Ideal ⟨2, ![128, 1]⟩ .f32) : FVec Ideal ⟨1, ![64]⟩ .f32 :=
  fun j => aw (ix2 (⟨(j 0).val, Nat.lt_of_lt_of_le (show (j 0).val < 64 from (j 0).isLt) (by decide)⟩ : Fin 128) (0 : Fin 1))

/-- The relation half of the attention vector: entries `64 … 127` of the `[128, 1]` column. -/
def attRel (aw : FVec Ideal ⟨2, ![128, 1]⟩ .f32) : FVec Ideal ⟨1, ![64]⟩ .f32 :=
  fun j => aw (ix2 (⟨64 + (j 0).val, Nat.add_lt_add_left (show (j 0).val < 64 from (j 0).isLt) 64⟩ : Fin 128) (0 : Fin 1))

/-- The attention score of edge `e`: the head row against the head half, plus the relation row against the relation
    half, plus the bias. -/
def score (head rel : FVec Ideal ⟨2, ![2000000, 64]⟩ .f32) (awh awr : FVec Ideal ⟨1, ![64]⟩ .f32)
    (ab : FVec Ideal ⟨1, ![1]⟩ .f32) (e : Fin 2000000) : EReal :=
  ((∑ k : Fin 64, head (ix2 e k) * awh (ix1 k)) + ∑ k : Fin 64, rel (ix2 e k) * awr (ix1 k)) + ab (ix1 (0 : Fin 1))

/-- The message array: row `e` is the tail row scaled by the logistic function of the edge's score. -/
def message (head tail rel : FVec Ideal ⟨2, ![2000000, 64]⟩ .f32) (awh awr : FVec Ideal ⟨1, ![64]⟩ .f32)
    (ab : FVec Ideal ⟨1, ![1]⟩ .f32) : FVec Ideal ⟨2, ![2000000, 64]⟩ .f32 :=
  fun i => Ideal.logistic (score head rel awh awr ab (i 0)) * tail i

/-- The final transform: entry `(n, d)` is `tanh` of row `n` of the aggregate against column `d` of the (already
    transposed) weight, plus the bias at `d`. -/
def transform (aggr : FVec Ideal ⟨2, ![200000, 64]⟩ .f32) (wt : FVec Ideal ⟨2, ![64, 64]⟩ .f32)
    (b : FVec Ideal ⟨1, ![64]⟩ .f32) : FVec Ideal ⟨2, ![200000, 64]⟩ .f32 :=
  fun i => Ideal.tanh ((∑ k : Fin 64, aggr (ix2 (i 0) k) * wt (ix2 k (i 1))) + b (ix1 (i 1)))

end Cert.Spec

end
-- ==== Proof.Host.lean ====
/-
  What the host operations around the two kernel regions leave in the arrays the regions read, as terms of the launch
  memory: the three row gathers (head rows and tail rows of the entity table at the two endpoint rows of the edge list,
  relation rows at the edge types, a negative index wrapped once by the table's length), the two halves of the attention
  vector, and, between the regions, the scatter-add of the message rows into the zero array at the head endpoints and the
  transposed weight.
-/
import proofs.«162722_j7816840479342_1_alg».proof.Proof.Gen.KernelIdeal.Frame
import proofs.«162722_j7816840479342_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo
open Idealize.ShloMosaic.ValueIdx

section AnyF

variable {F : FTy → Type} [FloatOps F]
variable (m : (ℓ : Loc nD τ sig) → Buf (Elt F) ℓ) (ρ : Dev nD → PrngReg)

/-! ## At the first region's entry -/

/-- The head rows: the entity table gathered at the edge list's first endpoint row. -/
theorem entry_head (c : Dev nD) :
    (V1 m ρ c main_v8 : S2000000x64.Idx → Elt F .f32) = (Host.gather gather_S200000x64_S2000000x1_S2000000x64_1_0_n_n_0_1_164 (m ((c : Thread nD τ).loc main_arg2)) (broadcastInDim S2000000x1 ![0] bcast_S2000000_S2000000x1_0 (select (cmpi .slt (shapeCast _ (extractStridedSlice S1x2000000 ![0, 0] (m ((c : Thread nD τ).loc main_arg0)) slices_S2x2000000_S1x2000000_0_0) shapeCasts_S1x2000000_S2000000) (broadcastInDim S2000000 ![] bcast_S_S2000000 (constantI S_ 32 0#32))) (addi (shapeCast _ (extractStridedSlice S1x2000000 ![0, 0] (m ((c : Thread nD τ).loc main_arg0)) slices_S2x2000000_S1x2000000_0_0) shapeCasts_S1x2000000_S2000000) (broadcastInDim S2000000 ![] bcast_S_S2000000 (constantI S_ 32 200000#32))) (shapeCast _ (extractStridedSlice S1x2000000 ![0, 0] (m ((c : Thread nD τ).loc main_arg0)) slices_S2x2000000_S1x2000000_0_0) shapeCasts_S1x2000000_S2000000)))) := by
  show StableHlo.after hostOps0 (W0 m ρ c) (Proc.devRef .tc main_v8) = _
  dsimp only [hostOps0]
  after_results
  rfl

set_option maxHeartbeats 1000000 in
/-- The tail rows: the entity table gathered at the edge list's second endpoint row. -/
theorem entry_tail (c : Dev nD) :
    (V1 m ρ c main_v17 : S2000000x64.Idx → Elt F .f32) = (Host.gather gather_S200000x64_S2000000x1_S2000000x64_1_0_n_n_0_1_164 (m ((c : Thread nD τ).loc main_arg2)) (broadcastInDim S2000000x1 ![0] bcast_S2000000_S2000000x1_0 (select (cmpi .slt (shapeCast _ (extractStridedSlice S1x2000000 ![1, 0] (m ((c : Thread nD τ).loc main_arg0)) slices_S2x2000000_S1x2000000_1_0) shapeCasts_S1x2000000_S2000000) (broadcastInDim S2000000 ![] bcast_S_S2000000 (constantI S_ 32 0#32))) (addi (shapeCast _ (extractStridedSlice S1x2000000 ![1, 0] (m ((c : Thread nD τ).loc main_arg0)) slices_S2x2000000_S1x2000000_1_0) shapeCasts_S1x2000000_S2000000) (broadcastInDim S2000000 ![] bcast_S_S2000000 (constantI S_ 32 200000#32))) (shapeCast _ (extractStridedSlice S1x2000000 ![1, 0] (m ((c : Thread nD τ).loc main_arg0)) slices_S2x2000000_S1x2000000_1_0) shapeCasts_S1x2000000_S2000000)))) := by
  show StableHlo.after hostOps0 (W0 m ρ c) (Proc.devRef .tc main_v17) = _
  dsimp only [hostOps0]
  after_results_simp <;> rfl

set_option maxHeartbeats 1000000 in
/-- The relation rows: the relation table gathered at the edge types. -/
theorem entry_rel (c : Dev nD) :
    (V1 m ρ c main_v24 : S2000000x64.Idx → Elt F .f32) = (Host.gather gather_S2x64_S2000000x1_S2000000x64_1_0_n_n_0_1_164 (m ((c : Thread nD τ).loc main_arg3)) (broadcastInDim S2000000x1 ![0] bcast_S2000000_S2000000x1_0 (select (cmpi .slt (m ((c : Thread nD τ).loc main_arg1)) (broadcastInDim S2000000 ![] bcast_S_S2000000 (constantI S_ 32 0#32))) (addi (m ((c : Thread nD τ).loc main_arg1)) (broadcastInDim S2000000 ![] bcast_S_S2000000 (constantI S_ 32 2#32))) (m ((c : Thread nD τ).loc main_arg1))))) := by
  show StableHlo.after hostOps0 (W0 m ρ c) (Proc.devRef .tc main_v24) = _
  dsimp only [hostOps0]
  after_results_simp <;> rfl

/-- The head half of the attention vector: the first 64 entries of the column read as a vector. -/
theorem entry_attHead (c : Dev nD) :
    (V1 m ρ c main_v26 : S64.Idx → Elt F .f32)
      = extractStridedSlice S64 ![0] (shapeCast _ (m ((c : Thread nD τ).loc main_arg4)) shapeCasts_S128x1_S128) slices_S128_S64_0 := by
  show StableHlo.after hostOps0 (W0 m ρ c) (Proc.devRef .tc main_v26) = _
  dsimp only [hostOps0]
  after_results
  rfl

/-- The relation half of the attention vector: its last 64 entries. -/
theorem entry_attRel (c : Dev nD) :
    (V1 m ρ c main_v27 : S64.Idx → Elt F .f32)
      = extractStridedSlice S64 ![64] (shapeCast _ (m ((c : Thread nD τ).loc main_arg4)) shapeCasts_S128x1_S128) slices_S128_S64_64 := by
  show StableHlo.after hostOps0 (W0 m ρ c) (Proc.devRef .tc main_v27) = _
  dsimp only [hostOps0]
  after_results
  rfl

/-- The attention bias is the launch memory's: no host operation writes it. -/
theorem entry_bias (c : Dev nD) :
    (V1 m ρ c main_arg5 : S1.Idx → Elt F .f32) = (m ((c : Thread nD τ).loc main_arg5)) := by
  show StableHlo.after hostOps0 (W0 m ρ c) (Proc.devRef .tc main_arg5) = _
  dsimp only [hostOps0]
  after_results

/-! ## Between the regions: an argument array is still the launch memory's -/

theorem mid_arg0 (c : Dev nD) : W2 m ρ c (Proc.devRef .tc main_arg0) = (m ((c : Thread nD τ).loc main_arg0)) := by
  rw [W2_of_ne m ρ c main_arg0 (by decide)]
  show StableHlo.after hostOps0 (W0 m ρ c) (Proc.devRef .tc main_arg0) = _
  dsimp only [hostOps0]
  after_results

theorem mid_arg6 (c : Dev nD) : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  dsimp only [hostOps0]
  after_results

theorem mid_arg7 (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  dsimp only [hostOps0]
  after_results

/-! ## At the second region's entry -/

/-- The aggregated rows: the message array the first region left, scatter-added into the zero array at the head
    endpoints. -/
theorem entry_aggr (c : Dev nD) :
    (V3 m ρ c main_v33 : S200000x64.Idx → Elt F .f32)
      = Host.scatterAdd scatter_S200000x64_S2000000x1_S2000000x64_1_0_0_1
          (broadcastInDim S200000x64 ![] bcast_S_S200000x64 (constant S_ .f32 0x00000000#32))
          (broadcastInDim S2000000x1 ![0] bcast_S2000000_S2000000x1_0 (shapeCast _ (extractStridedSlice S1x2000000 ![0, 0] (m ((c : Thread nD τ).loc main_arg0)) slices_S2x2000000_S1x2000000_0_0) shapeCasts_S1x2000000_S2000000))
          ((dat0 (V1 m ρ) c).arrAt 6 cfg0.N) := by
  have h6 : W2 m ρ c (Proc.devRef .tc main_v28) = (dat0 (V1 m ρ) c).arrAt 6 cfg0.N := W2_arr m ρ c 6
  show StableHlo.after hostOps1 (W2 m ρ c) (Proc.devRef .tc main_v33) = _
  dsimp only [hostOps1]
  after_results
  rw [h6, mid_arg0 m ρ c]
  rfl

/-- The weight, transposed. -/
theorem entry_weightT (c : Dev nD) :
    (V3 m ρ c main_v34 : S64x64.Idx → Elt F .f32)
      = transpose S64x64 [1, 0] (m ((c : Thread nD τ).loc main_arg6)) transposes_S64x64_S64x64_1_0 := by
  show StableHlo.after hostOps1 (W2 m ρ c) (Proc.devRef .tc main_v34) = _
  dsimp only [hostOps1]
  after_results
  rw [mid_arg6 m ρ c]

/-- The output bias is the launch memory's. -/
theorem entry_outBias (c : Dev nD) :
    (V3 m ρ c main_arg7 : S64.Idx → Elt F .f32) = (m ((c : Thread nD τ).loc main_arg7)) := by
  show StableHlo.after hostOps1 (W2 m ρ c) (Proc.devRef .tc main_arg7) = _
  dsimp only [hostOps1]
  after_results
  exact mid_arg7 m ρ c

end AnyF

/-! ## The two halves of the attention vector, index by index -/

/-- Entry `k` of the first slice of the column read as a vector is the column's entry `k`. -/
theorem slice_head (aw : FVec Ideal S128x1 .f32) :
    extractStridedSlice S64 ![0] (shapeCast S128 aw shapeCasts_S128x1_S128) slices_S128_S64_0 = Cert.Spec.attHead aw := by
  funext j
  have hj : (j 0).val < 64 := (j 0).isLt
  refine (extractStridedSlice_apply ![0] _ slices_S128_S64_0 j (ix1 (⟨(j 0).val, by omega⟩ : Fin 128))
    (fun a => match a with | ⟨0, _⟩ => by show (j 0).val = 0 + (j 0).val; omega)).trans ?_
  exact shapeCast_apply aw shapeCasts_S128x1_S128 _ _
    (by rewrite [Shape.rowMajor_val_two, Shape.rowMajor_val_one]; show (j 0).val * 1 + 0 = (j 0).val; omega)

/-- Entry `k` of the second slice is the column's entry `64 + k`. -/
theorem slice_rel (aw : FVec Ideal S128x1 .f32) :
    extractStridedSlice S64 ![64] (shapeCast S128 aw shapeCasts_S128x1_S128) slices_S128_S64_64 = Cert.Spec.attRel aw := by
  funext j
  have hj : (j 0).val < 64 := (j 0).isLt
  refine (extractStridedSlice_apply ![64] _ slices_S128_S64_64 j (ix1 (⟨64 + (j 0).val, by omega⟩ : Fin 128))
    (fun a => match a with | ⟨0, _⟩ => by show 64 + (j 0).val = 64 + (j 0).val; rfl)).trans ?_
  exact shapeCast_apply aw shapeCasts_S128x1_S128 _ _
    (by rewrite [Shape.rowMajor_val_two, Shape.rowMajor_val_one]; show (64 + (j 0).val) * 1 + 0 = 64 + (j 0).val; omega)

end Cert.KernelIdeal.HostValue

end
-- ==== Proof.LibKeepdims.lean ====
/-
  The keepdims column forms of a row reduction, read at an index: a vector `[a]` cast to the column `[a, 1]`, and a
  column `[a, 1]` broadcast along the lanes to `[a, b]` (what `jnp.sum(x, axis=-1, keepdims=True)` followed by a
  broadcast against `[a, b]` lowers to in a kernel body). General in the extents and the element type.
-/
import Idealize.ShloMosaic.Lib.Pipeline.Value
import Idealize.ShloMosaic.Lib.ValueIdx

namespace Cert.LibKeepdims

open Idealize.ShloMosaic Idealize.ShloMosaic.ValueIdx

/-- A vector `[a]` cast to the column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.AttArr.lean ====
/-
  The first region's output array as one function of the arrays the region is entered with: at every grid point the
  body stores, for each of the block's 8000 edges, the tail row scaled by the logistic function of the edge's score
  (two 64-term row sums against the two halves of the attention vector, plus the bias); the 250 blocks tile the
  2,000,000 rows, so the array the write-backs leave is `Spec.message` of the head, tail and relation arrays.
-/
import proofs.«162722_j7816840479342_1_alg».proof.Proof.Gen.KernelIdeal.Frame
import proofs.«162722_j7816840479342_1_alg».proof.Proof.Spec
import proofs.«162722_j7816840479342_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttValue

open Cert.KernelIdeal Cert.KernelIdeal.Gen Idealize.ShloMosaic Idealize.ShloMosaic.TcCoe Idealize.SL.Sem
open Idealize.ShloMosaic.ValueIdx Cert.LibKeepdims
open Idealize.ShloMosaic.Pipeline (Dat)

/-- The logistic function of a vector, read at an index. -/
theorem logistic_apply {s : Shape} {φ : FTy} (a : FVec Ideal s φ) (i : s.Idx) :
    logistic a i = Ideal.logistic (a i) := rfl

/-! ## The lane sums -/

/-- The sum along the lanes of an `[8000, 64]` block, at row `p`: the sum of the row's 64 entries. -/
theorem rowSum_apply (src : FVec Ideal S8000x64 .f32) (h : S8000x64.Reduces [1] S8000) (hφ : FKind.Formats .f32)
    (hacc : (0x00000000#32 : BitVec 32) = 0x00000000#32) (p : Fin 8000) :
    multiReduction (F := Ideal) .add [1] S8000 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-- A block times a 64-vector laid along the lanes of every row, summed along the lanes: at row `p`, the row against the vector. -/
theorem rowDot_apply (x : FVec Ideal S8000x64 .f32) (a : FVec Ideal S64 .f32)
    (h₁ : S64.ShapeCasts S1x64) (h₂ : S1x64.Broadcasts S8000x64) (h : S8000x64.Reduces [1] S8000)
    (hφ : FKind.Formats .f32) (hacc : (0x00000000#32 : BitVec 32) = 0x00000000#32) (p : Fin 8000) :
    multiReduction (F := Ideal) .add [1] S8000 (mulf x (broadcastTo S8000x64 (shapeCast S1x64 a h₁) h₂)) 0x00000000#32 h hφ hacc (ix1 p)
      = ∑ k : Fin 64, x (ix2 p k) * a (ix1 k) := by
  refine (rowSum_apply _ h hφ hacc p).trans (Finset.sum_congr rfl fun k _ => ?_)
  rw [mulf_apply, broadcastTo_1b_ab_apply, shapeCast_a_1a_apply]

/-! ## The kernel's stored value at an index -/

/-- Entry `(p, q)` of what the body stores: the tail block's entry scaled by the logistic function of row `p`'s score
    (the head row against the head half, plus the relation row against the relation half, plus the bias). -/
theorem pay_apply (x0 x1 x2 : Vec Ideal S8000x64 .f32) (x3 x4 : Vec Ideal S64 .f32) (x5 : Vec Ideal S1 .f32)
    (p : Fin 8000) (q : Fin 64) :
    k0_pay1 x0 x1 x2 x3 x4 x5 (ix2 p q)
      = Ideal.logistic (((∑ k : Fin 64, x0 (ix2 p k) * x3 (ix1 k)) + ∑ k : Fin 64, x2 (ix2 p k) * x4 (ix1 k))
          + x5 (ix1 (0 : Fin 1))) * x1 (ix2 p q) := by
  unfold k0_pay1
  simp only [shapeCast_self]
  rw [mulf_apply, broadcastTo_a1_ab_apply, logistic_apply, addf_apply, addf_apply,
    shapeCast_a_a1_apply, shapeCast_a_a1_apply, rowDot_apply, rowDot_apply,
    broadcastTo_1b_ab_apply, shapeCast_a_1a_apply]

/-! ## From the body's stored block to the message array -/

theorem zero2 : (![0, 0] : Fin 2 → Nat) = fun _ => 0 := funext fun a => by fin_cases a <;> rfl
theorem zero1 : (![0] : Fin 1 → Nat) = fun _ => 0 := funext fun a => by fin_cases a <;> rfl

/-- What the body leaves in the output's buffer, entry by entry, over any six loaded blocks: the stored value of
    `pay_apply` at the entry's row and lane. -/
theorem out_apply (x0 x1 x2 : Vec Ideal S8000x64 .f32) (x3 x4 : Vec Ideal S64 .f32) (x5 : Vec Ideal S1 .f32)
    (p : Fin 8000) (q : Fin 64) :
    out0_6 x0 x1 x2 x3 x4 x5 (ix2 p q)
      = Ideal.logistic (((∑ k : Fin 64, x0 (ix2 p k) * x3 (ix1 k)) + ∑ k : Fin 64, x2 (ix2 p k) * x4 (ix1 k))
          + x5 (ix1 (0 : Fin 1))) * x1 (ix2 p q) := by
  unfold out0_6
  rw [View.canon_unit_zero zero2]
  simp only [View.ld_unit_zero (S := S8000x64) zero2, View.ld_unit_zero (S := S64) zero1, View.ld_unit_zero (S := S1) zero1]
  exact pay_apply x0 x1 x2 x3 x4 x5 p q

/-- The same set beside the message array: if the three row blocks are rows `e, e+1, …` of the head, tail and relation
    arrays at the entry's row, and the three small operands are the two halves of the attention vector and the bias,
    the stored entry is the message array's entry. -/
theorem out_eq_message (head tail rel : FVec Ideal ⟨2, ![2000000, 64]⟩ .f32) (awh awr : FVec Ideal ⟨1, ![64]⟩ .f32)
    (ab : FVec Ideal ⟨1, ![1]⟩ .f32)
    (x0 x1 x2 : Vec Ideal S8000x64 .f32) (x3 x4 : Vec Ideal S64 .f32) (x5 : Vec Ideal S1 .f32)
    (p : Fin 8000) (q : Fin 64) (e : Fin 2000000)
    (h0 : ∀ k : Fin 64, x0 (ix2 p k) = head (ix2 e k)) (h1 : x1 (ix2 p q) = tail (ix2 e q))
    (h2 : ∀ k : Fin 64, x2 (ix2 p k) = rel (ix2 e k))
    (h3 : ∀ k : Fin 64, x3 (ix1 k) = awh (ix1 k)) (h4 : ∀ k : Fin 64, x4 (ix1 k) = awr (ix1 k))
    (h5 : x5 (ix1 (0 : Fin 1)) = ab (ix1 (0 : Fin 1))) :
    out0_6 x0 x1 x2 x3 x4 x5 (ix2 p q) = Cert.Spec.message head tail rel awh awr ab (ix2 e q) := by
  refine (out_apply x0 x1 x2 x3 x4 x5 p q).trans ?_
  show _ = Ideal.logistic (((∑ k : Fin 64, head (ix2 e k) * awh (ix1 k)) + ∑ k : Fin 64, rel (ix2 e k) * awr (ix1 k))
      + ab (ix1 (0 : Fin 1))) * tail (ix2 e q)
  rw [h1, h5, Finset.sum_congr rfl fun k _ => congrArg₂ (· * ·) (h0 k) (h3 k),
    Finset.sum_congr rfl fun k _ => congrArg₂ (· * ·) (h2 k) (h4 k)]

/-- The printed index maps, decided over the 250 points: the four row windows sit at block row `t`, lane block 0; the
    three small windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = 0 ∧ win0_4.index t (0 : Fin 1) = 0 ∧ win0_5.index t (0 : Fin 1) = 0
    ∧ win0_6.index t (0 : Fin 2) = t.val ∧ win0_6.index t (1 : Fin 2) = 0 :=
  (by decide +kernel : ∀ t : Fin grid0.N, _)

/-- WHAT POINT `t` WRITES BACK is block `t` of the message array of the arrays the region finds: the three row windows
    hold rows `8000 t … 8000 t + 7999` of the head, tail and relation arrays, the three small windows their whole arrays. -/
theorem flushed_eq (V : (c : Dev nD) → (b : Ref sig .tc) → Buf (Elt Ideal) ((c : Thread nD τ).loc b)) (c : Dev nD) (t : Fin cfg0.N) :
    (dat0 (F := Ideal) V c).flushed 6 t
      = ((cfg0.win 6).blk t).view.read (Elt Ideal) (Cert.Spec.message (V c main_v8) (V c main_v17) (V c main_v24) (V c main_v26) (V c main_v27) (V c main_arg5)) := by
  show (cfg0.win 6).cut (grid0.coords t) ((dat0 V c).after 6 t) = _
  rw [after0_6]
  obtain ⟨a0, a1, b0, b1, c0, c1, d0, e0, f0, g0, g1⟩ := idx_facts t
  have ht : t.val < 250 := lt_of_lt_of_eq t.isLt N_0
  funext j
  have hj0 : (j 0).val < 8000 := (j 0).isLt
  have hj1 : (j 1).val < 64 := (j 1).isLt
  have hj : (j : S8000x64.Idx) = ix2 (⟨(j 0).val, hj0⟩ : Fin 8000) (⟨(j 1).val, hj1⟩ : Fin 64) :=
    funext fun a => by match a with | ⟨0, _⟩ => rfl | ⟨1, _⟩ => rfl
  have he : (((cfg0.win 6).blk t).view.emb j : S2000000x64.Idx)
      = ix2 (⟨t.val * 8000 + (j 0).val, by omega⟩ : Fin 2000000) (⟨(j 1).val, hj1⟩ : Fin 64) :=
    funext fun a => Fin.ext (by
      match a with
      | ⟨0, _⟩ => show win0_6.index t (0 : Fin 2) * 8000 + 1 * (j 0).val = t.val * 8000 + (j 0).val; omega
      | ⟨1, _⟩ => show win0_6.index t (1 : Fin 2) * 64 + 1 * (j 1).val = (j 1).val; omega)
  show out0_6 (iblk0 V c 0 t) (iblk0 V c 1 t) (iblk0 V c 2 t) (iblk0 V c 3 t) (iblk0 V c 4 t) (iblk0 V c 5 t) j
    = Cert.Spec.message (V c main_v8) (V c main_v17) (V c main_v24) (V c main_v26) (V c main_v27) (V c main_arg5) (((cfg0.win 6).blk t).view.emb j)
  refine (congrArg (out0_6 (iblk0 V c 0 t) (iblk0 V c 1 t) (iblk0 V c 2 t) (iblk0 V c 3 t) (iblk0 V c 4 t) (iblk0 V c 5 t)) hj).trans ?_
  refine Eq.trans ?_ (congrArg (Cert.Spec.message (V c main_v8) (V c main_v17) (V c main_v24) (V c main_v26) (V c main_v27) (V c main_arg5)) he).symm
  refine out_eq_message (V c main_v8) (V c main_v17) (V c main_v24) (V c main_v26) (V c main_v27) (V c main_arg5)
    (iblk0 V c 0 t) (iblk0 V c 1 t) (iblk0 V c 2 t) (iblk0 V c 3 t) (iblk0 V c 4 t) (iblk0 V c 5 t) _ _ _ ?_ ?_ ?_ ?_ ?_ ?_
  · intro k
    show V c main_v8 (((cfg0.win 0).blk t).view.emb (ix2 (⟨(j 0).val, hj0⟩ : Fin 8000) k)) = V c main_v8 _
    refine congrArg (V c main_v8) (funext fun a => Fin.ext ?_)
    match a with
    | ⟨0, _⟩ => show win0_0.index t (0 : Fin 2) * 8000 + 1 * (j 0).val = t.val * 8000 + (j 0).val; omega
    | ⟨1, _⟩ => show win0_0.index t (1 : Fin 2) * 64 + 1 * k.val = k.val; omega
  · show V c main_v17 (((cfg0.win 1).blk t).view.emb (ix2 (⟨(j 0).val, hj0⟩ : Fin 8000) (⟨(j 1).val, hj1⟩ : Fin 64))) = V c main_v17 _
    refine congrArg (V c main_v17) (funext fun a => Fin.ext ?_)
    match a with
    | ⟨0, _⟩ => show win0_1.index t (0 : Fin 2) * 8000 + 1 * (j 0).val = t.val * 8000 + (j 0).val; omega
    | ⟨1, _⟩ => show win0_1.index t (1 : Fin 2) * 64 + 1 * (j 1).val = (j 1).val; omega
  · intro k
    show V c main_v24 (((cfg0.win 2).blk t).view.emb (ix2 (⟨(j 0).val, hj0⟩ : Fin 8000) k)) = V c main_v24 _
    refine congrArg (V c main_v24) (funext fun a => Fin.ext ?_)
    match a with
    | ⟨0, _⟩ => show win0_2.index t (0 : Fin 2) * 8000 + 1 * (j 0).val = t.val * 8000 + (j 0).val; omega
    | ⟨1, _⟩ => show win0_2.index t (1 : Fin 2) * 64 + 1 * k.val = k.val; omega
  · intro k
    show V c main_v26 (((cfg0.win 3).blk t).view.emb (ix1 k)) = V c main_v26 _
    refine congrArg (V c main_v26) (funext fun a => Fin.ext ?_)
    match a with
    | ⟨0, _⟩ => show win0_3.index t (0 : Fin 1) * 64 + 1 * k.val = k.val; omega
  · intro k
    show V c main_v27 (((cfg0.win 4).blk t).view.emb (ix1 k)) = V c main_v27 _
    refine congrArg (V c main_v27) (funext fun a => Fin.ext ?_)
    match a with
    | ⟨0, _⟩ => show win0_4.index t (0 : Fin 1) * 64 + 1 * k.val = k.val; omega
  · show V c main_arg5 (((cfg0.win 5).blk t).view.emb (ix1 (0 : Fin 1))) = V c main_arg5 _
    refine congrArg (V c main_arg5) (funext fun a => Fin.ext ?_)
    match a with
    | ⟨0, _⟩ => show win0_5.index t (0 : Fin 1) * 1 + 1 * 0 = 0; omega

/-- An index of the message array is in point `t`'s block iff each coordinate is in the block's range on its axis. -/
theorem mem_blk (t : Fin cfg0.N) (i : S2000000x64.Idx) :
    i ∈ ((cfg0.win 6).blk t).view.set
      ↔ ∀ a : Fin 2, win0_6.index t a * S8000x64.size a ≤ (i a).val ∧ (i a).val < win0_6.index t a * S8000x64.size a + S8000x64.size a := by
  show i ∈ ((View.whole main_v28).slice (win0_6.rect t)).set ↔ _
  rw [View.set_slice_whole, Rect.mem_set_unit]
  exact Iff.rfl

/-- Every entry of the message array is written back by some point: row `r` by point `r / 8000`. -/
theorem covered (i : S2000000x64.Idx) :
    ∃ t : Fin cfg0.N, (cfg0.win 6).flush t = true ∧ i ∈ ((cfg0.win 6).blk t).view.set := by
  have hi0 : (i 0).val < 2000000 := (i 0).isLt
  have hi1 : (i 1).val < 64 := (i 1).isLt
  have hN : grid0.N = 250 := N_0
  have hlt : (i 0).val / 8000 < grid0.N := by rw [hN]; omega
  obtain ⟨a0, a1, b0, b1, c0, c1, d0, e0, f0, g0, g1⟩ := idx_facts ⟨(i 0).val / 8000, hlt⟩
  refine ⟨⟨(i 0).val / 8000, hlt⟩, flush0_6 _, ?_⟩
  rw [mem_blk]
  intro a
  match a with
  | ⟨0, _⟩ =>
    show win0_6.index ⟨(i 0).val / 8000, hlt⟩ (0 : Fin 2) * 8000 ≤ (i 0).val
      ∧ (i 0).val < win0_6.index ⟨(i 0).val / 8000, hlt⟩ (0 : Fin 2) * 8000 + 8000
    rw [g0]
    show (i 0).val / 8000 * 8000 ≤ (i 0).val ∧ (i 0).val < (i 0).val / 8000 * 8000 + 8000
    omega
  | ⟨1, _⟩ =>
    show win0_6.index ⟨(i 0).val / 8000, hlt⟩ (1 : Fin 2) * 64 ≤ (i 1).val
      ∧ (i 1).val < win0_6.index ⟨(i 0).val / 8000, hlt⟩ (1 : Fin 2) * 64 + 64
    rw [g1]
    omega

/-- THE MESSAGE ARRAY: after the region's last point the output array holds the message array of the arrays the region found. -/
theorem att_array (V : (c : Dev nD) → (b : Ref sig .tc) → Buf (Elt Ideal) ((c : Thread nD τ).loc b)) (c : Dev nD) :
    (dat0 (F := Ideal) V c).arrAt 6 cfg0.N
      = Cert.Spec.message (V c main_v8) (V c main_v17) (V c main_v24) (V c main_v26) (V c main_v27) (V c main_arg5) :=
  (dat0 (F := Ideal) V c).arrAt_eq_of_cover 6 (Cert.Spec.message (V c main_v8) (V c main_v17) (V c main_v24) (V c main_v26) (V c main_v27) (V c main_arg5))
    (fun t _ => flushed_eq V c t) covered

end Cert.KernelIdeal.AttValue

end
-- ==== Proof.FinArr.lean ====
/-
  The second region's output array as one function of the arrays the region is entered with: at every grid point the
  body stores, for each of the block's 20000 entities, `tanh` of the aggregated row against each column of the
  transposed weight (a product into a zero accumulator, the change of float format the identity on the extended reals)
  plus the bias; the 10 blocks tile the 200,000 rows, so the array the write-backs leave is `Spec.transform`.
-/
import proofs.«162722_j7816840479342_1_alg».proof.Proof.Gen.KernelIdeal.Frame
import proofs.«162722_j7816840479342_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.FinValue

open Cert.KernelIdeal Cert.KernelIdeal.Gen Idealize.ShloMosaic Idealize.ShloMosaic.TcCoe Idealize.SL.Sem
open Idealize.ShloMosaic.ValueIdx
open Idealize.ShloMosaic.Pipeline (Dat)

/-! ## The contraction of the product: one axis of 64 entries -/

/-- The left operand is read at the output's row … -/
theorem lhs_prod_0 (i : S20000x64.Idx) (q : dot_S20000x64_S64x64_S20000x64_1_0_0_1_n_n.contr.Idx) :
    (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide), dif_pos (show (0 : Fin S20000x64.rank) ∈ dot_S20000x64_S64x64_S20000x64_1_0_0_1_n_n.lhsNonContracting by decide)]
  rfl
/-- … and at the contracted entry as its column. -/
theorem lhs_prod_1 (i : S20000x64.Idx) (q : dot_S20000x64_S64x64_S20000x64_1_0_0_1_n_n.contr.Idx) :
    (dot_S20000x64_S64x64_S20000x64_1_0_0_1_n_n.lhsIdx i q 1).val = (q ⟨0, by decide⟩).val :=
  dot_S20000x64_S64x64_S20000x64_1_0_0_1_n_n.lhsIdx_val_of_single rfl i q
/-- The right operand is read at the contracted entry as its row … -/
theorem rhs_prod_0 (i : S20000x64.Idx) (q : dot_S20000x64_S64x64_S20000x64_1_0_0_1_n_n.contr.Idx) :
    (dot_S20000x64_S64x64_S20000x64_1_0_0_1_n_n.rhsIdx i q 0).val = (q ⟨0, by decide⟩).val :=
  dot_S20000x64_S64x64_S20000x64_1_0_0_1_n_n.rhsIdx_val_of_single rfl i q
/-- … and at the output's column. -/
theorem rhs_prod_1 (i : S20000x64.Idx) (q : dot_S20000x64_S64x64_S20000x64_1_0_0_1_n_n.contr.Idx) :
    (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide), dif_pos (show (1 : Fin S64x64.rank) ∈ dot_S20000x64_S64x64_S20000x64_1_0_0_1_n_n.rhsNonContracting by decide)]
  rfl

/-- The product accumulated onto zero, at row `p` and column `q`: the sum over the 64 contracted entries of the left
    operand's row `p` against the right operand's column `q`. -/
theorem prod_apply (l : FVec Ideal S20000x64 .bf16) (r : FVec Ideal S64x64 .bf16) (p : Fin 20000) (q : Fin 64) :
    FloatOps.matmul dot_S20000x64_S64x64_S20000x64_1_0_0_1_n_n none l r (constant (F := Ideal) S20000x64 .f32 0x00000000#32) (ix2 p q)
      = ∑ k : Fin 64, l (ix2 p k) * r (ix2 k q) := by
  rw [Ideal.matmul_constant_zero_apply, ← Equiv.sum_comp (ValueIdx.contrEquiv1 dot_S20000x64_S64x64_S20000x64_1_0_0_1_n_n 64 rfl rfl).symm]
  refine Finset.sum_congr rfl fun k _ => ?_
  have hk := ValueIdx.contrEquiv1_symm_val dot_S20000x64_S64x64_S20000x64_1_0_0_1_n_n 64 rfl rfl k
  have el : dot_S20000x64_S64x64_S20000x64_1_0_0_1_n_n.lhsIdx (ix2 p q) ((ValueIdx.contrEquiv1 dot_S20000x64_S64x64_S20000x64_1_0_0_1_n_n 64 rfl rfl).symm k) = ix2 p k := funext fun a => Fin.ext (by
    match a with
    | ⟨0, _⟩ => exact lhs_prod_0 _ _
    | ⟨1, _⟩ => exact (lhs_prod_1 _ _).trans hk)
  have er : dot_S20000x64_S64x64_S20000x64_1_0_0_1_n_n.rhsIdx (ix2 p q) ((ValueIdx.contrEquiv1 dot_S20000x64_S64x64_S20000x64_1_0_0_1_n_n 64 rfl rfl).symm k) = ix2 k q := funext fun a => Fin.ext (by
    match a with
    | ⟨0, _⟩ => exact (rhs_prod_0 _ _).trans hk
    | ⟨1, _⟩ => exact rhs_prod_1 _ _)
  rw [el, er]

/-! ## The body's arithmetic at an index -/

/-- What the body stores, at row `p` and column `q` of its block: `tanh` of the block's row `p` against the weight's
    column `q`, plus the bias at `q`. (Rounding to the narrower format is the identity on the extended reals.) -/
theorem payload_apply (x0 : Vec Ideal S20000x64 .f32) (x1 : Vec Ideal S64x64 .f32) (x2 : Vec Ideal S64 .f32) (p : Fin 20000) (q : Fin 64) :
    k1_pay1 (F := Ideal) x0 x1 x2 (ix2 p q) = Ideal.tanh ((∑ k : Fin 64, x0 (ix2 p k) * x1 (ix2 k q)) + x2 (ix1 q)) := by
  unfold k1_pay1
  simp only [shapeCast_self]
  show Ideal.tanh (FloatOps.matmul dot_S20000x64_S64x64_S20000x64_1_0_0_1_n_n none _ _ (constant (F := Ideal) S20000x64 .f32 0x00000000#32) (ix2 p q) + broadcastTo S20000x64 (shapeCast S1x64 x2 shapeCasts_S64_S1x64) broadcasts_S1x64_S20000x64 (ix2 p q)) = _
  rw [prod_apply, broadcastTo_1b_ab_apply, shapeCast_a_1a_apply]
  rfl

/-! ## From the blocks to the array -/

theorem zeros2 : (![0, 0] : Fin 2 → Nat) = fun _ => 0 := funext fun a => by fin_cases a <;> rfl
theorem zeros1 : (![0] : Fin 1 → Nat) = fun _ => 0 := funext fun a => by fin_cases a; rfl

/-- The index maps over the ten points: the aggregate's and the output's blocks are block row `t`, the weight and the
    bias are read whole. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The body's arithmetic of block row `n` of the aggregate, the whole weight and the whole bias is block row `n` of the
    transform: row `p` of the block is row `n · 20000 + p` of the array. -/
theorem block_apply (A : FVec Ideal S200000x64 .f32) (Wt : FVec Ideal S64x64 .f32) (B : FVec Ideal S64 .f32)
    (x0 : Vec Ideal S20000x64 .f32) (x1 : Vec Ideal S64x64 .f32) (x2 : Vec Ideal S64 .f32) (n : Nat)
    (h0 : ∀ (p : Fin 20000) (k : Fin 64) (r : Fin 200000), r.val = n * 20000 + p.val → x0 (ix2 p k) = A (ix2 r k))
    (h1 : x1 = Wt) (h2 : x2 = B) (p : Fin 20000) (q : Fin 64) (r : Fin 200000) (hr : r.val = n * 20000 + p.val) :
    k1_pay1 (F := Ideal) x0 x1 x2 (ix2 p q) = Cert.Spec.transform A Wt B (ix2 r q) := by
  subst h1 h2
  rw [payload_apply]
  show _ = Ideal.tanh ((∑ k : Fin 64, A (ix2 r k) * x1 (ix2 k q)) + x2 (ix1 q))
  rw [Finset.sum_congr rfl fun k _ => by rw [h0 p k r hr]]

/-- What point `t` writes back is block row `t` of the transform of the arrays the region finds. -/
theorem flushed_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (Cert.Spec.transform (V c main_v33) (V c main_v34) (V c main_arg7)) := by
  show (cfg1.win 3).cut (grid1.coords t) ((dat1 V c).after 3 t) = _
  rw [after1_3]
  unfold out1_3
  rw [View.canon_unit_zero zeros2]
  simp only [View.ld_unit_zero (S := S20000x64) zeros2, View.ld_unit_zero (S := S64x64) zeros2, View.ld_unit_zero (S := S64) zeros1]
  obtain ⟨e00, e01, e10, e11, e20, e30, e31⟩ := index_facts t
  have ht : t.val < 10 := lt_of_lt_of_eq t.isLt N_1
  refine funext fun (j : S20000x64.Idx) => ?_
  obtain ⟨p, q, rfl⟩ : ∃ (p : Fin 20000) (q : Fin 64), j = ix2 p q := ⟨j 0, j 1, eq_ix2 j⟩
  have hp : p.val < 20000 := p.isLt
  have hrow : t.val * 20000 + p.val < 200000 := by omega
  have hemb : ((cfg1.win 3).blk t).view.emb (ix2 p q) = ix2 (⟨t.val * 20000 + p.val, hrow⟩ : Fin 200000) q := by
    funext a; apply Fin.ext
    match a with
    | ⟨0, _⟩ => show win1_3.index t (0 : Fin 2) * 20000 + 1 * p.val = t.val * 20000 + p.val; omega
    | ⟨1, _⟩ => show win1_3.index t (1 : Fin 2) * 64 + 1 * q.val = q.val; omega
  show k1_pay1 (F := Ideal) (iblk1 V c 0 t) (iblk1 V c 1 t) (iblk1 V c 2 t) (ix2 p q)
    = Cert.Spec.transform (V c main_v33) (V c main_v34) (V c main_arg7) (((cfg1.win 3).blk t).view.emb (ix2 p q))
  rw [hemb]
  refine block_apply (V c main_v33) (V c main_v34) (V c main_arg7) (iblk1 V c 0 t) (iblk1 V c 1 t) (iblk1 V c 2 t) t.val ?_ ?_ ?_ p q _ rfl
  · intro p' k r hr
    show V c main_v33 (((cfg1.win 0).blk t).view.emb (ix2 p' k)) = V c main_v33 (ix2 r k)
    refine congrArg _ (funext fun a => Fin.ext ?_)
    match a with
    | ⟨0, _⟩ => show win1_0.index t (0 : Fin 2) * 20000 + 1 * p'.val = r.val; omega
    | ⟨1, _⟩ => show win1_0.index t (1 : Fin 2) * 64 + 1 * k.val = k.val; omega
  · refine funext fun (y : S64x64.Idx) => ?_
    show V c main_v34 (((cfg1.win 1).blk t).view.emb y) = V c main_v34 y
    refine congrArg _ (funext fun a => Fin.ext ?_)
    match a with
    | ⟨0, _⟩ => show win1_1.index t (0 : Fin 2) * 64 + 1 * (y 0).val = (y 0).val; omega
    | ⟨1, _⟩ => show win1_1.index t (1 : Fin 2) * 64 + 1 * (y 1).val = (y 1).val; omega
  · refine funext fun (y : S64.Idx) => ?_
    show V c main_arg7 (((cfg1.win 2).blk t).view.emb y) = V c main_arg7 y
    refine congrArg _ (funext fun a => Fin.ext ?_)
    match a with
    | ⟨0, _⟩ => show win1_2.index t (0 : Fin 1) * 64 + 1 * (y 0).val = (y 0).val; omega

/-- An index of the array is in point `t`'s block iff each coordinate is in the block's range on its axis. -/
theorem mem_blk (t : Fin cfg1.N) (i : S200000x64.Idx) :
    i ∈ ((cfg1.win 3).blk t).view.set ↔ ∀ a : Fin 2, win1_3.index t a * S20000x64.size a ≤ (i a).val ∧ (i a).val < win1_3.index t a * S20000x64.size a + S20000x64.size a := by
  show i ∈ ((View.whole main_v35).slice (win1_3.rect t)).set ↔ _
  rw [View.set_slice_whole, Rect.mem_set_unit]
  exact Iff.rfl

/-- The ten blocks tile the array: row `r` is in the block of point `r / 20000`. -/
theorem cover (i : S200000x64.Idx) :
    ∃ t : Fin cfg1.N, (cfg1.win 3).flush t = true ∧ i ∈ ((cfg1.win 3).blk t).view.set := by
  have hi0 : (i 0).val < 200000 := (i 0).isLt
  have hi1 : (i 1).val < 64 := (i 1).isLt
  have hlt : (i 0).val / 20000 < cfg1.N := lt_of_lt_of_eq (show (i 0).val / 20000 < 10 by omega) N_1.symm
  obtain ⟨-, -, -, -, -, e30, e31⟩ := index_facts ⟨(i 0).val / 20000, hlt⟩
  have e30' : win1_3.index ⟨(i 0).val / 20000, hlt⟩ (0 : Fin 2) = (i 0).val / 20000 := e30
  refine ⟨⟨(i 0).val / 20000, hlt⟩, flush1_3 _, ?_⟩
  rw [mem_blk]
  intro a
  match a with
  | ⟨0, _⟩ =>
    show win1_3.index ⟨(i 0).val / 20000, hlt⟩ (0 : Fin 2) * 20000 ≤ (i 0).val ∧ (i 0).val < win1_3.index ⟨(i 0).val / 20000, hlt⟩ (0 : Fin 2) * 20000 + 20000
    omega
  | ⟨1, _⟩ =>
    show win1_3.index ⟨(i 0).val / 20000, hlt⟩ (1 : Fin 2) * 64 ≤ (i 1).val ∧ (i 1).val < win1_3.index ⟨(i 0).val / 20000, hlt⟩ (1 : Fin 2) * 64 + 64
    omega

/-- The second region's output array, after its ten write-backs, is the transform of the arrays the region finds. -/
theorem fin_array (V : (c : Dev nD) → (b : Ref sig .tc) → Buf (Elt Ideal) ((c : Thread nD τ).loc b)) (c : Dev nD) :
    (dat1 (F := Ideal) V c).arrAt 3 cfg1.N
      = Cert.Spec.transform (V c main_v33) (V c main_v34) (V c main_arg7) :=
  (dat1 (F := Ideal) V c).arrAt_eq_of_cover 3 (Cert.Spec.transform (V c main_v33) (V c main_v34) (V c main_arg7))
    (fun t _ => flushed_eq V c t) cover

end Cert.KernelIdeal.FinValue

end
-- ==== Proof.RefBridge.lean ====
/-
  The reference's two arithmetic stretches are the specification's two maps, for all arrays. The message: the 128-term
  contraction of the concatenated head and relation rows against the attention column is the sum of its two 64-term
  halves (addition on the extended reals is commutative and associative: no finiteness is used), and
  `1 / (1 + e^(-x))` is the logistic function by definition. The final transform: the host contraction at an index is
  the 64-term sum, the bias broadcast reads its entry at the column.
-/
import proofs.«162722_j7816840479342_1_alg».proof.Proof.Gen.ReferenceIdeal.Read
import proofs.«162722_j7816840479342_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Bridge

open Cert.ReferenceIdeal Cert.ReferenceIdeal.Gen Idealize.ShloMosaic Idealize.ShloMosaic.TcCoe Idealize.SL.Sem
open Idealize.ShloMosaic.ValueIdx

/-! ## The message -/

/-- Column k of the head half, as a column of the 128-wide concatenation. -/
abbrev colL (k : Fin 64) : Fin 128 := ⟨k.val, Nat.lt_of_lt_of_le k.isLt (by decide)⟩
/-- Column k of the relation half, as a column of the 128-wide concatenation. -/
abbrev colR (k : Fin 64) : Fin 128 := ⟨64 + k.val, Nat.add_lt_add_left k.isLt 64⟩

/-- A sum over 128 columns is the sum over the first 64 plus the sum over the last 64. -/
theorem sum_halves (f : Fin 128 → EReal) :
    ∑ k : Fin 128, f k = (∑ k : Fin 64, f (colL k)) + ∑ k : Fin 64, f (colR k) :=
  Fin.sum_univ_add (a := 64) (b := 64) f

/-- The float word 0x3F800000 is the number one. -/
theorem ofBits_one_f32 : Ideal.ofBits .f32 0x3F800000#32 = 1 := by
  simp [Ideal.ofBits, Ideal.ieee, -EReal.coe_mul]; norm_num

/-- The constant one spread over the score column reads one everywhere. -/
theorem onesCol_apply (j : S2000000x1.Idx) :
    broadcastInDim S2000000x1 ![] bcast_S_S2000000x1 (constant (F := Ideal) S_ .f32 0x3F800000#32) j = 1 := by
  rw [broadcastInDim_apply _ bcast_S_S2000000x1 _ j (fun a => a.elim0) (fun a => a.elim0), constant_apply]
  exact ofBits_one_f32

/-- One over one plus the exponential of the negated argument, entry by entry, is the logistic function of the entry. -/
theorem logistic_apply (x : FVec Ideal S2000000x1 .f32) (j : S2000000x1.Idx) :
    Host.divf (broadcastInDim S2000000x1 ![] bcast_S_S2000000x1 (constant (F := Ideal) S_ .f32 0x3F800000#32))
        (addf (broadcastInDim S2000000x1 ![] bcast_S_S2000000x1 (constant (F := Ideal) S_ .f32 0x3F800000#32))
          (Host.exp (Host.negf x))) j
      = Ideal.logistic (x j) := by
  show Ideal.div (broadcastInDim S2000000x1 ![] bcast_S_S2000000x1 (constant (F := Ideal) S_ .f32 0x3F800000#32) j)
      (broadcastInDim S2000000x1 ![] bcast_S_S2000000x1 (constant (F := Ideal) S_ .f32 0x3F800000#32) j + Ideal.exp (-(x j)))
    = Ideal.div 1 (1 + Ideal.exp (-(x j)))
  rw [onesCol_apply]

/-- The score's contraction at edge e: row e of the left operand against the one column of the right operand, summed
    over the 128 shared positions. -/
theorem scoreDot_apply (y : FVec Ideal S2000000x128 .f32) (aw : FVec Ideal S128x1 .f32) (e : Fin 2000000) :
    Host.dotGeneral dot_S2000000x128_S128x1_S2000000x1_1_0_0_1_n_n none y aw (ix2 e (0 : Fin 1))
      = ∑ k : Fin 128, y (ix2 e k) * aw (ix2 k (0 : Fin 1)) := by
  simp only [Host.dotGeneral]
  rw [Ideal.dotGeneral_apply, ← Equiv.sum_comp (ValueIdx.contrEquiv1 dot_S2000000x128_S128x1_S2000000x1_1_0_0_1_n_n 128 rfl rfl).symm]
  refine Finset.sum_congr rfl fun k _ => ?_
  have hk := ValueIdx.contrEquiv1_symm_val dot_S2000000x128_S128x1_S2000000x1_1_0_0_1_n_n 128 rfl rfl k
  have el : dot_S2000000x128_S128x1_S2000000x1_1_0_0_1_n_n.lhsIdx (ix2 e (0 : Fin 1)) ((ValueIdx.contrEquiv1 dot_S2000000x128_S128x1_S2000000x1_1_0_0_1_n_n 128 rfl rfl).symm k) = ix2 e k := funext fun a => Fin.ext (by
    match a with
    | ⟨0, _⟩ => exact Read.lhs_main_v26_0 _ _
    | ⟨1, _⟩ => exact (Read.lhs_main_v26_1 _ _).trans hk)
  have er : dot_S2000000x128_S128x1_S2000000x1_1_0_0_1_n_n.rhsIdx (ix2 e (0 : Fin 1)) ((ValueIdx.contrEquiv1 dot_S2000000x128_S128x1_S2000000x1_1_0_0_1_n_n 128 rfl rfl).symm k) = ix2 k (0 : Fin 1) := funext fun a => Fin.ext (by
    match a with
    | ⟨0, _⟩ => exact (Read.rhs_main_v26_0 _ _).trans hk
    | ⟨1, _⟩ => exact Read.rhs_main_v26_1 _ _)
  rw [el, er]

/-- The first 64 columns of the concatenation are the head rows. -/
theorem concat_left (head rel : FVec Ideal S2000000x64 .f32) (e : Fin 2000000) (k : Fin 64) :
    concatenate S2000000x128 1 [⟨S2000000x64, head⟩, ⟨S2000000x64, rel⟩] concatenates_S2000000x64_S2000000x64_S2000000x128_d1
        (ix2 e (colL k)) = head (ix2 e k) :=
  concatenate_pair_apply_left 1 head rel concatenates_S2000000x64_S2000000x64_S2000000x128_d1 (ix2 e (colL k)) rfl (ix2 e k)
    (fun b => match b with
      | ⟨0, _⟩ => rfl
      | ⟨1, _⟩ => rfl)

/-- The last 64 columns of the concatenation are the relation rows. -/
theorem concat_right (head rel : FVec Ideal S2000000x64 .f32) (e : Fin 2000000) (k : Fin 64) :
    concatenate S2000000x128 1 [⟨S2000000x64, head⟩, ⟨S2000000x64, rel⟩] concatenates_S2000000x64_S2000000x64_S2000000x128_d1
        (ix2 e (colR k)) = rel (ix2 e k) :=
  concatenate_pair_apply_right 1 head rel concatenates_S2000000x64_S2000000x64_S2000000x128_d1 (ix2 e (colR k)) rfl rfl (ix2 e k)
    (fun b => match b with
      | ⟨0, _⟩ => fun _ => rfl
      | ⟨1, _⟩ => fun h => absurd rfl h)
    (by show k.val + 64 = 64 + k.val; omega)

/-- The one-entry bias, spread to a 1 by 1 array and then down the 2000000 rows, reads its entry everywhere. -/
theorem scoreBias_apply (ab : FVec Ideal S1 .f32) (j : S2000000x1.Idx) :
    broadcastInDim S2000000x1 ![0, 1] bcast_S1x1_S2000000x1_0_1 (broadcastInDim S1x1 ![1] bcast_S1_S1x1_1 ab) j
      = ab (ix1 (0 : Fin 1)) := by
  rw [broadcastInDim_apply _ bcast_S1x1_S2000000x1_0_1 _ j (ix2 (0 : Fin 1) (0 : Fin 1)) (fun a => match a with
    | ⟨0, _⟩ => by show 0 = if (1 : Nat) = 1 then 0 else (j 0).val; rw [if_pos rfl]
    | ⟨1, _⟩ => by show 0 = if (1 : Nat) = 1 then 0 else (j 1).val; rw [if_pos rfl])]
  exact broadcastInDim_apply _ bcast_S1_S1x1_1 ab (ix2 (0 : Fin 1) (0 : Fin 1)) (ix1 (0 : Fin 1)) (fun a => match a with
    | ⟨0, _⟩ => by show 0 = if (1 : Nat) = 1 then 0 else (0 : Fin 1).val; rw [if_pos rfl])

/-- The reference's score column at edge e is the specification's score: the 128-term contraction splits into the head
    half against the first 64 attention weights and the relation half against the last 64. -/
theorem score_apply (head rel : FVec Ideal S2000000x64 .f32) (aw : FVec Ideal S128x1 .f32) (ab : FVec Ideal S1 .f32)
    (e : Fin 2000000) :
    addf (Host.dotGeneral dot_S2000000x128_S128x1_S2000000x1_1_0_0_1_n_n none
          (concatenate S2000000x128 1 [⟨S2000000x64, head⟩, ⟨S2000000x64, rel⟩] concatenates_S2000000x64_S2000000x64_S2000000x128_d1) aw)
        (broadcastInDim S2000000x1 ![0, 1] bcast_S1x1_S2000000x1_0_1 (broadcastInDim S1x1 ![1] bcast_S1_S1x1_1 ab))
        (ix2 e (0 : Fin 1))
      = Cert.Spec.score head rel (Cert.Spec.attHead aw) (Cert.Spec.attRel aw) ab e := by
  rw [addf_apply, scoreDot_apply, scoreBias_apply, sum_halves]
  simp only [concat_left, concat_right]
  rfl

theorem ref_message (head tail rel : FVec Ideal S2000000x64 .f32) (aw : FVec Ideal S128x1 .f32) (ab : FVec Ideal S1 .f32) :
    mulf (broadcastInDim S2000000x64 ![0, 1] bcast_S2000000x1_S2000000x64_0_1
        (Host.divf (broadcastInDim S2000000x1 ![] bcast_S_S2000000x1 (constant (F := Ideal) S_ .f32 0x3F800000#32))
          (addf (broadcastInDim S2000000x1 ![] bcast_S_S2000000x1 (constant (F := Ideal) S_ .f32 0x3F800000#32))
            (Host.exp (Host.negf (addf
              (Host.dotGeneral dot_S2000000x128_S128x1_S2000000x1_1_0_0_1_n_n none
                (concatenate S2000000x128 1 [⟨S2000000x64, head⟩, ⟨S2000000x64, rel⟩] concatenates_S2000000x64_S2000000x64_S2000000x128_d1) aw)
              (broadcastInDim S2000000x1 ![0, 1] bcast_S1x1_S2000000x1_0_1 (broadcastInDim S1x1 ![1] bcast_S1_S1x1_1 ab)))))))) tail
      = Cert.Spec.message head tail rel (Cert.Spec.attHead aw) (Cert.Spec.attRel aw) ab := by
  funext i
  obtain ⟨e, q, rfl⟩ : ∃ (e : Fin 2000000) (q : Fin 64), i = ix2 e q := ⟨i 0, i 1, eq_ix2 i⟩
  rw [mulf_apply, broadcastInDim_apply _ bcast_S2000000x1_S2000000x64_0_1 _ (ix2 e q) (ix2 e (0 : Fin 1)) (fun a => match a with
    | ⟨0, _⟩ => by show e.val = if (2000000 : Nat) = 1 then 0 else e.val; rw [if_neg (by decide)]
    | ⟨1, _⟩ => by show 0 = if (1 : Nat) = 1 then 0 else q.val; rw [if_pos rfl]),
    logistic_apply, score_apply]
  rfl

/-! ## The final transform -/

/-- The transform's contraction at an index (n, d): row n of the left operand against column d of the right one,
    summed over the 64 shared positions. -/
theorem transformDot_apply (y0 : FVec Ideal S200000x64 .f32) (y1 : FVec Ideal S64x64 .f32) (n : Fin 200000) (d : Fin 64) :
    Host.dotGeneral dot_S200000x64_S64x64_S200000x64_1_0_0_1_n_n none y0 y1 (ix2 n d)
      = ∑ k : Fin 64, y0 (ix2 n k) * y1 (ix2 k d) := by
  simp only [Host.dotGeneral]
  rw [Ideal.dotGeneral_apply, ← Equiv.sum_comp (ValueIdx.contrEquiv1 dot_S200000x64_S64x64_S200000x64_1_0_0_1_n_n 64 rfl rfl).symm]
  refine Finset.sum_congr rfl fun k _ => ?_
  have hk := ValueIdx.contrEquiv1_symm_val dot_S200000x64_S64x64_S200000x64_1_0_0_1_n_n 64 rfl rfl k
  have el : dot_S200000x64_S64x64_S200000x64_1_0_0_1_n_n.lhsIdx (ix2 n d) ((ValueIdx.contrEquiv1 dot_S200000x64_S64x64_S200000x64_1_0_0_1_n_n 64 rfl rfl).symm k) = ix2 n k := funext fun a => Fin.ext (by
    match a with
    | ⟨0, _⟩ => exact Read.lhs_main_v44_0 _ _
    | ⟨1, _⟩ => exact (Read.lhs_main_v44_1 _ _).trans hk)
  have er : dot_S200000x64_S64x64_S200000x64_1_0_0_1_n_n.rhsIdx (ix2 n d) ((ValueIdx.contrEquiv1 dot_S200000x64_S64x64_S200000x64_1_0_0_1_n_n 64 rfl rfl).symm k) = ix2 k d := funext fun a => Fin.ext (by
    match a with
    | ⟨0, _⟩ => exact (Read.rhs_main_v44_0 _ _).trans hk
    | ⟨1, _⟩ => exact Read.rhs_main_v44_1 _ _)
  rw [el, er]

/-- The bias, spread first to a row and then down the 200000 rows, read at (n, d) is its entry d. -/
theorem transformBias_apply (b : FVec Ideal S64 .f32) (n : Fin 200000) (d : Fin 64) :
    broadcastInDim S200000x64 ![0, 1] bcast_S1x64_S200000x64_0_1 (broadcastInDim S1x64 ![1] bcast_S64_S1x64_1 b) (ix2 n d)
      = b (ix1 d) := by
  rw [broadcastInDim_apply _ bcast_S1x64_S200000x64_0_1 _ (ix2 n d) (ix2 (0 : Fin 1) d) (fun a => match a with
    | ⟨0, _⟩ => by show 0 = if (1 : Nat) = 1 then 0 else n.val; rw [if_pos rfl]
    | ⟨1, _⟩ => by show d.val = if (64 : Nat) = 1 then 0 else d.val; rw [if_neg (by decide)])]
  exact broadcastInDim_apply _ bcast_S64_S1x64_1 b (ix2 (0 : Fin 1) d) (ix1 d) (fun a => match a with
    | ⟨0, _⟩ => by show d.val = if (64 : Nat) = 1 then 0 else d.val; rw [if_neg (by decide)])

theorem ref_transform (aggr : FVec Ideal S200000x64 .f32) (wt : FVec Ideal S64x64 .f32) (b : FVec Ideal S64 .f32) :
    Host.tanh (addf (Host.dotGeneral dot_S200000x64_S64x64_S200000x64_1_0_0_1_n_n none aggr wt)
        (broadcastInDim S200000x64 ![0, 1] bcast_S1x64_S200000x64_0_1 (broadcastInDim S1x64 ![1] bcast_S64_S1x64_1 b)))
      = Cert.Spec.transform aggr wt b := by
  funext i
  obtain ⟨n, d, rfl⟩ : ∃ (n : Fin 200000) (d : Fin 64), i = ix2 n d := ⟨i 0, i 1, eq_ix2 i⟩
  show Ideal.tanh (Host.dotGeneral dot_S200000x64_S64x64_S200000x64_1_0_0_1_n_n none aggr wt (ix2 n d)
      + broadcastInDim S200000x64 ![0, 1] bcast_S1x64_S200000x64_0_1 (broadcastInDim S1x64 ![1] bcast_S64_S1x64_1 b) (ix2 n d))
    = Ideal.tanh ((∑ k : Fin 64, aggr (ix2 n k) * wt (ix2 k d)) + b (ix1 d))
  rw [transformDot_apply, transformBias_apply]

end Cert.ReferenceIdeal.Bridge

end
-- ==== Proof.lean ====
/-
  The certificate of the knowledge-graph attention layer: a kernel program of two pipelined regions among host
  operations against its plain reference, as one function on the extended reals.

  Both programs gather, per edge, the head and tail rows of the entity table and the relation row (the same host
  operations, a negative index wrapped once). The kernel's first region computes, block of 8000 edges by block, the
  message row `σ(s_e) · t_e` with the score `s_e` taken as two 64-term row sums against the two halves of the attention
  vector plus the bias, and `σ` the logistic function as one operation; the reference concatenates head and relation
  rows, takes ONE 128-term product sum against the whole attention vector, and spells `σ x` as `1 / (1 + e^(-x))`. A sum
  over 128 terms is the sum of its two halves (addition on the extended reals is commutative and associative, so no
  finiteness is used), and the logistic function is by definition that quotient. Both programs then scatter-add the
  message rows into the zero array at the head endpoints (the same host operation on equal arrays). The kernel's second
  region computes, block of 20000 entities by block, `tanh (g_n · Wᵀ + β)` with the product on the matrix unit into a
  zero accumulator after a change of float format (the identity on the extended reals); the reference takes the same
  product as a host contraction. So both results are `Spec.transform` of the scatter-add of `Spec.message` of the same
  gathered rows: the kernel's by its two regions' arrays read block by block (`AttValue.att_array`,
  `FinValue.fin_array`) over what the host operations leave (`HostValue`), the reference's by `Bridge.ref_message` and
  `Bridge.ref_transform`.
-/
import proofs.«162722_j7816840479342_1_alg».proof.Defs
import proofs.«162722_j7816840479342_1_alg».proof.Proof.Gen.Kernel
import proofs.«162722_j7816840479342_1_alg».proof.Proof.Gen.Kernel.Frame
import proofs.«162722_j7816840479342_1_alg».proof.Proof.Gen.KernelIdeal
import proofs.«162722_j7816840479342_1_alg».proof.Proof.Gen.KernelIdeal.Frame
import proofs.«162722_j7816840479342_1_alg».proof.Proof.Gen.ReferenceIdeal
import proofs.«162722_j7816840479342_1_alg».proof.Proof.Gen.Pre_finite_inputs
import proofs.«162722_j7816840479342_1_alg».proof.Proof.Gen.ReferenceIdeal.Run
import proofs.«162722_j7816840479342_1_alg».proof.Proof.Gen.ReferenceIdeal.Read
import proofs.«162722_j7816840479342_1_alg».proof.Proof.Spec
import proofs.«162722_j7816840479342_1_alg».proof.Proof.KRun
import proofs.«162722_j7816840479342_1_alg».proof.Proof.Host
import proofs.«162722_j7816840479342_1_alg».proof.Proof.AttArr
import proofs.«162722_j7816840479342_1_alg».proof.Proof.FinArr
import proofs.«162722_j7816840479342_1_alg».proof.Proof.RefBridge
import Idealize.ShloMosaic.Adequacy
import Idealize.ShloMosaic.Init

set_option maxRecDepth 16384

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The kernel program's result as ONE function of the launch memory: the final transform of the scatter-add of the
    message array of the gathered rows. -/
def value (c : Dev nD) : S200000x64.Idx → Elt Ideal .f32 :=
  Cert.Spec.transform
      (Host.scatterAdd scatter_S200000x64_S2000000x1_S2000000x64_1_0_0_1
        (broadcastInDim S200000x64 ![] bcast_S_S200000x64 (constant (F := Ideal) S_ .f32 0x00000000#32))
        (broadcastInDim S2000000x1 ![0] bcast_S2000000_S2000000x1_0 (shapeCast _ (extractStridedSlice S1x2000000 ![0, 0] (m ((c : Thread nD τ).loc main_arg0)) slices_S2x2000000_S1x2000000_0_0) shapeCasts_S1x2000000_S2000000))
        (Cert.Spec.message (Host.gather gather_S200000x64_S2000000x1_S2000000x64_1_0_n_n_0_1_164 (m ((c : Thread nD τ).loc main_arg2)) (broadcastInDim S2000000x1 ![0] bcast_S2000000_S2000000x1_0 (select (cmpi .slt (shapeCast _ (extractStridedSlice S1x2000000 ![0, 0] (m ((c : Thread nD τ).loc main_arg0)) slices_S2x2000000_S1x2000000_0_0) shapeCasts_S1x2000000_S2000000) (broadcastInDim S2000000 ![] bcast_S_S2000000 (constantI S_ 32 0#32))) (addi (shapeCast _ (extractStridedSlice S1x2000000 ![0, 0] (m ((c : Thread nD τ).loc main_arg0)) slices_S2x2000000_S1x2000000_0_0) shapeCasts_S1x2000000_S2000000) (broadcastInDim S2000000 ![] bcast_S_S2000000 (constantI S_ 32 200000#32))) (shapeCast _ (extractStridedSlice S1x2000000 ![0, 0] (m ((c : Thread nD τ).loc main_arg0)) slices_S2x2000000_S1x2000000_0_0) shapeCasts_S1x2000000_S2000000)))) (Host.gather gather_S200000x64_S2000000x1_S2000000x64_1_0_n_n_0_1_164 (m ((c : Thread nD τ).loc main_arg2)) (broadcastInDim S2000000x1 ![0] bcast_S2000000_S2000000x1_0 (select (cmpi .slt (shapeCast _ (extractStridedSlice S1x2000000 ![1, 0] (m ((c : Thread nD τ).loc main_arg0)) slices_S2x2000000_S1x2000000_1_0) shapeCasts_S1x2000000_S2000000) (broadcastInDim S2000000 ![] bcast_S_S2000000 (constantI S_ 32 0#32))) (addi (shapeCast _ (extractStridedSlice S1x2000000 ![1, 0] (m ((c : Thread nD τ).loc main_arg0)) slices_S2x2000000_S1x2000000_1_0) shapeCasts_S1x2000000_S2000000) (broadcastInDim S2000000 ![] bcast_S_S2000000 (constantI S_ 32 200000#32))) (shapeCast _ (extractStridedSlice S1x2000000 ![1, 0] (m ((c : Thread nD τ).loc main_arg0)) slices_S2x2000000_S1x2000000_1_0) shapeCasts_S1x2000000_S2000000)))) (Host.gather gather_S2x64_S2000000x1_S2000000x64_1_0_n_n_0_1_164 (m ((c : Thread nD τ).loc main_arg3)) (broadcastInDim S2000000x1 ![0] bcast_S2000000_S2000000x1_0 (select (cmpi .slt (m ((c : Thread nD τ).loc main_arg1)) (broadcastInDim S2000000 ![] bcast_S_S2000000 (constantI S_ 32 0#32))) (addi (m ((c : Thread nD τ).loc main_arg1)) (broadcastInDim S2000000 ![] bcast_S_S2000000 (constantI S_ 32 2#32))) (m ((c : Thread nD τ).loc main_arg1)))))
          (Cert.Spec.attHead (m ((c : Thread nD τ).loc main_arg4))) (Cert.Spec.attRel (m ((c : Thread nD τ).loc main_arg4))) (m ((c : Thread nD τ).loc main_arg5))))
      (transpose S64x64 [1, 0] (m ((c : Thread nD τ).loc main_arg6)) transposes_S64x64_S64x64_1_0)
      (m ((c : Thread nD τ).loc main_arg7))

/-- What the second region's write-backs leave is that function: the second region's array over the contents it
    is entered with, those contents over the first region's array, that array over the contents at launch. -/
theorem arr_eq (c : Dev nD) : (dat1 (V3 m ρ) c).arrAt 3 cfg1.N = value m c := by
  rw [FinValue.fin_array (V3 m ρ) c, HostValue.entry_aggr m ρ c, HostValue.entry_weightT m ρ c, HostValue.entry_outBias m ρ c,
    AttValue.att_array (V1 m ρ) c, HostValue.entry_head m ρ c, HostValue.entry_tail m ρ c, HostValue.entry_rel m ρ c,
    HostValue.entry_attHead m ρ c, HostValue.entry_attRel m ρ c, HostValue.entry_bias m ρ c,
    HostValue.slice_head, HostValue.slice_rel]
  rfl

end Cert.KernelIdeal.Result

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the same array: the kernel's by its run with the
    result named and `Result.arr_eq`; the reference's composed term by `Bridge.ref_transform` and `Bridge.ref_message`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Result.value m c, ?_, ?_⟩
  · exact (θ_run Cert.KernelIdeal.defs _ _).mono
      (fun r h c => ⟨(h c).1.trans (Cert.KernelIdeal.Result.arr_eq m ρ c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    rw [Cert.ReferenceIdeal.Bridge.ref_transform, Cert.ReferenceIdeal.Bridge.ref_message]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
